-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 92
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S850000x1, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S850000x1, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Gcn.lean ====
/-
  The two graph-convolution layers as functions of arrays.

  With self loops appended, an edge list e (2 × 800000) gives 850000 source and target nodes (`srcIdx`, `dstIdx`) and
  the edge weights w extend by ones (`wts`). The weighted in-degree of a node is the sum of the weights of the edges
  arriving at it (`deg`), its inverse square root where the degree is positive and zero elsewhere is `dinv`, and an
  edge's normalised weight is dinv(source) · weight · dinv(target) (`norm`); a negative node number counts from the
  end (`wrap`). One convolution (`conv`) takes projected features hW, scales row source(j) of hW by the j-th
  normalised weight, sums those rows into row target(j), and adds the bias to every row. The network (`net`) is
  conv ∘ projection ∘ relu ∘ conv ∘ projection, with the projection a parameter `mm`: the two programs differ only in
  how they compute it.
-/
import proofs.«114478_j48146583388527_1_alg».proof.Proof.Gen.KernelIdeal

noncomputable section

namespace Cert.KernelIdeal.Gcn

open Cert.KernelIdeal Idealize.ShloMosaic
open Cert.KernelIdeal.Facts₀ Cert.KernelIdeal.Facts

variable {F : FTy → Type} [FloatOps F]

/-- The source node of every edge, then every node once (the self loops). -/
def srcIdx (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target node of every edge, then every node once. -/
def dstIdx (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- The edge weights, then a one for every self loop. -/
def wts (w : (⟨S800000, .f32⟩ : BufTy).Contents (Elt F)) : (⟨S850000, .f32⟩ : BufTy).Contents (Elt F) :=
  concatenate S850000 0 [⟨S800000, w⟩, ⟨S50000, (broadcastInDim S50000 ![] bcast_S_S50000 (constant S_ .f32 0x3F800000#32))⟩] concatenates_S800000_S50000_S850000_d0

/-- A negative node number counts from the end: 50000 is added to it. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- Weighted in-degree: the weights summed into their target nodes. -/
def deg (e : (⟨S2x800000, .i32⟩ : BufTy).Contents (Elt F)) (w : (⟨S800000, .f32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dstIdx e)) (wts w)

/-- The inverse square root of the degree where it is positive, zero elsewhere. -/
def dinv (e : (⟨S2x800000, .i32⟩ : BufTy).Contents (Elt F)) (w : (⟨S800000, .f32⟩ : BufTy).Contents (Elt F)) : (⟨S50000, .f32⟩ : BufTy).Contents (Elt F) :=
  select (cmpf .ogt (deg e w) (broadcastInDim S50000 ![] bcast_S_S50000 (constant S_ .f32 0x00000000#32))) (Host.rsqrt (deg e w)) (broadcastInDim S50000 ![] bcast_S_S50000 (id (constant S_ .f32 0x00000000#32)))

/-- An edge's normalised weight: dinv(source) · weight · dinv(target). -/
def norm (e : (⟨S2x800000, .i32⟩ : BufTy).Contents (Elt F)) (w : (⟨S800000, .f32⟩ : BufTy).Contents (Elt F)) : (⟨S850000, .f32⟩ : BufTy).Contents (Elt F) :=
  mulf (mulf (Host.gather gather_S50000_S850000x1_S850000_n_0_n_n_0_1_1 (dinv e w) (broadcastInDim S850000x1 ![0] bcast_S850000_S850000x1_0 (wrap (srcIdx e)))) (wts w)) (Host.gather gather_S50000_S850000x1_S850000_n_0_n_n_0_1_1 (dinv e w) (broadcastInDim S850000x1 ![0] bcast_S850000_S850000x1_0 (wrap (dstIdx e))))

/-- One convolution over projected features: rows gathered at the sources, scaled, summed into the targets; the bias added. -/
def conv (hW : (⟨S50000x128, .f32⟩ : BufTy).Contents (Elt F)) (nrm : (⟨S850000, .f32⟩ : BufTy).Contents (Elt F))
    (src dst : (⟨S850000, .i32⟩ : BufTy).Contents (Elt F)) (b : (⟨S128, .f32⟩ : BufTy).Contents (Elt F)) : (⟨S50000x128, .f32⟩ : BufTy).Contents (Elt F) :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (broadcastInDim S850000x128 ![0, 1] bcast_S850000x1_S850000x128_0_1 (broadcastInDim S850000x1 ![0] bcast_S850000_S850000x1_0 nrm)) (Host.gather gather_S50000x128_S850000x1_S850000x128_1_0_n_n_0_1_1128 hW (broadcastInDim S850000x1 ![0] bcast_S850000_S850000x1_0 (wrap src))))) (broadcastInDim S50000x128 ![0, 1] bcast_S1x128_S50000x128_0_1 (broadcastInDim S1x128 ![1] bcast_S128_S1x128_1 b))

/-- The positive part, entry by entry. -/
def relu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- The two layers over a projection `mm`. -/
def net (mm : (⟨S50000x128, .f32⟩ : BufTy).Contents (Elt F) → (⟨S128x128, .f32⟩ : BufTy).Contents (Elt F) → (⟨S50000x128, .f32⟩ : BufTy).Contents (Elt F))
    (x : (⟨S50000x128, .f32⟩ : BufTy).Contents (Elt F)) (e : (⟨S2x800000, .i32⟩ : BufTy).Contents (Elt F)) (w : (⟨S800000, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) : (⟨S50000x128, .f32⟩ : BufTy).Contents (Elt F) :=
  conv (mm (relu (conv (mm x W1) (norm e w) (srcIdx e) (dstIdx e) b1)) W2) (norm e w) (srcIdx e) (dstIdx e) b2

end Cert.KernelIdeal.Gcn

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Proj0.lean ====
/-
  The first dense projection, read as a whole array.

  The projection X · W of the node features X (50000 × 128) by the weight matrix W (128 × 128) is computed in ten row
  blocks of 5000 rows: block t holds rows 5000·t … 5000·t + 4999 of X, the whole of W is resident, and the block of
  the result is the block of X times W into a zero accumulator. Rounding the two operands to the narrower format
  before the product is the identity at the ideal values, so entry (p, q) of result block t is
      Σ_k X(5000·t + p, k) · W(k, q),
  which is entry (5000·t + p, q) of the plain product of the two whole arrays. The ten blocks tile the result's rows
  (row r lies in block r / 5000), so the result array ends holding the plain product X · W.

  Everything here is stated at an arbitrary contents `V` of the buffers at the moment the projection starts.
-/
import proofs.«114478_j48146583388527_1_alg».proof.Proof.Gen.KernelIdeal.Frame
import proofs.«114478_j48146583388527_1_alg».proof.Proof.LibMatmulPlain
import Idealize.ShloMosaic.Lib.Pipeline.Value
import Idealize.ShloMosaic.Lib.ValueIdx
import Idealize.ShloMosaic.Lib.StackMember

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Proj0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The plain product of a 50000 × 128 array by a 128 × 128 array, as the host's contraction computes it. -/
abbrev product (A : FVec Ideal S50000x128 .f32) (B : FVec Ideal S128x128 .f32) : FVec Ideal S50000x128 .f32 :=
  Host.dotGeneral (DotDims.plain 50000 128 128) none A B

/-- One block's product at entry (p, q): the sum over the contracted coordinate of the block's row p against column q. -/
theorem body_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact LibMatmulPlain.matmul_plain_zero_apply none (truncf .bf16 x0 bitsLt_bf16_f32) (truncf .bf16 x1 bitsLt_bf16_f32) p q

/-- Where the three windows sit at grid point t: the features' and the result's blocks at row block t, the weights whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 10 := lt_of_lt_of_eq t.isLt N_0

/-- Row p of the features' block at point t is row 5000·t + p of the features. -/
theorem x_block (c : Dev nD) (t : Fin cfg0.N) (p : Fin 5000) (k : Fin 128) (i : Fin 50000) (hi : i.val = t.val * 5000 + p.val) :
    (iblk0 V c 0 t : Vec Ideal S5000x128 .f32) (ix2 p k) = (V c main_arg0 : FVec Ideal S50000x128 .f32) (ix2 i k) := by
  obtain ⟨e0, e1, -⟩ := idx_facts t
  show V c main_arg0 (((cfg0.win 0).blk t).view.emb (ix2 p k)) = V c main_arg0 (ix2 i k)
  refine congrArg (V c main_arg0) ?_
  funext a; apply Fin.ext
  match a with
  | ⟨0, _⟩ => show win0_0.index t (0 : Fin 2) * 5000 + 1 * p.val = i.val; omega
  | ⟨1, _⟩ => show win0_0.index t (1 : Fin 2) * 128 + 1 * k.val = k.val; omega

/-- The weights' block at every point is the whole weight matrix. -/
theorem w_block (c : Dev nD) (t : Fin cfg0.N) (k : Fin 128) (q : Fin 128) :
    (iblk0 V c 1 t : Vec Ideal S128x128 .f32) (ix2 k q) = (V c main_arg3 : FVec Ideal S128x128 .f32) (ix2 k q) := by
  obtain ⟨-, -, e2, e3, -⟩ := idx_facts t
  show V c main_arg3 (((cfg0.win 1).blk t).view.emb (ix2 k q)) = V c main_arg3 (ix2 k q)
  refine congrArg (V c main_arg3) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- What point t writes back is block t of the plain product of the features by the weights. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  have hlt := t_lt t
  funext j
  obtain ⟨p, q, rfl⟩ : ∃ (p : Fin 5000) (q : Fin 128), j = ix2 p q := ⟨j 0, j 1, eq_ix2 j⟩
  have hp := p.isLt
  show k0_pay1 (iblk0 V c 0 t) (iblk0 V c 1 t) (ix2 p q)
    = product (V c main_arg0) (V c main_arg3) (((cfg0.win 2).blk t).view.emb (ix2 p q))
  have hemb : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb]
  refine (body_apply (iblk0 V c 0 t) (iblk0 V c 1 t) p q).trans ?_
  refine (Finset.sum_congr rfl fun k _ => ?_).trans
    (StackMember.dotGeneral_plain_apply none (V c main_arg0 : FVec Ideal S50000x128 .f32) (V c main_arg3 : FVec Ideal S128x128 .f32) (⟨t.val * 5000 + p.val, by omega⟩ : Fin 50000) q).symm
  rw [x_block V c t p k ⟨t.val * 5000 + p.val, by omega⟩ rfl, w_block V c t k q]

/-- An index of the result array lies in point t's block iff each coordinate lies in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every row of the result lies in the block of the point numbered by the row's quotient by 5000. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, lt_of_lt_of_eq (b := 10) (by omega) N_0.symm⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the ten points: the plain product of the features by the weights as the projection found them. -/
theorem final (c : Dev nD) : (dat0 V c).arrAt 2 cfg0.N = product (V c main_arg0) (V c main_arg3) :=
  (dat0 V c).arrAt_eq_of_cover 2 (product (V c main_arg0) (V c main_arg3)) (fun t _ => flushed_eq V c t) covered

end Cert.KernelIdeal.Proj0

end
-- ==== Proof.Proj1.lean ====
/-
  The second dense projection, read as a whole array.

  The hidden features H (50000 × 128, the first layer's output after the positive part) are projected by the second
  weight matrix W (128 × 128) exactly as the node features were by the first: ten row blocks of 5000 rows, the whole of
  W resident, each result block the block of H times W into a zero accumulator. Here the block of H is first re-laid
  to its own shape, which changes nothing, and both operands are rounded to the narrower format, the identity at the
  ideal values. So entry (p, q) of result block t is Σ_k H(5000·t + p, k) · W(k, q), entry (5000·t + p, q) of the
  plain product H · W, and the ten blocks tile the result's rows.

  Everything here is stated at an arbitrary contents `V` of the buffers at the moment the projection starts.
-/
import proofs.«114478_j48146583388527_1_alg».proof.Proof.Gen.KernelIdeal.Frame
import proofs.«114478_j48146583388527_1_alg».proof.Proof.LibMatmulPlain
import Idealize.ShloMosaic.Lib.Pipeline.Value
import Idealize.ShloMosaic.Lib.ValueIdx
import Idealize.ShloMosaic.Lib.StackMember

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Proj1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The plain product of a 50000 × 128 array by a 128 × 128 array, as the host's contraction computes it. -/
abbrev product (A : FVec Ideal S50000x128 .f32) (B : FVec Ideal S128x128 .f32) : FVec Ideal S50000x128 .f32 :=
  Host.dotGeneral (DotDims.plain 50000 128 128) none A B

/-- One block's product at entry (p, q): the sum over the contracted coordinate of the block's row p against column q. -/
theorem body_apply (x0 : Vec Ideal S5000x128 .f32) (x1 : Vec Ideal S128x128 .f32) (p : Fin 5000) (q : Fin 128) :
    k1_pay1 x0 x1 (ix2 p q) = ∑ k : Fin 128, x0 (ix2 p k) * x1 (ix2 k q) := by
  unfold k1_pay1
  rw [shapeCast_self]
  exact LibMatmulPlain.matmul_plain_zero_apply none (truncf .bf16 x0 bitsLt_bf16_f32) (truncf .bf16 x1 bitsLt_bf16_f32) p q

/-- Where the three windows sit at grid point t: the hidden features' and the result's blocks at row block t, the weights whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 10 := lt_of_lt_of_eq t.isLt N_1

/-- Row p of the hidden features' block at point t is row 5000·t + p of the hidden features. -/
theorem x_block (c : Dev nD) (t : Fin cfg1.N) (p : Fin 5000) (k : Fin 128) (i : Fin 50000) (hi : i.val = t.val * 5000 + p.val) :
    (iblk1 V c 0 t : Vec Ideal S5000x128 .f32) (ix2 p k) = (V c main_v49 : FVec Ideal S50000x128 .f32) (ix2 i k) := by
  obtain ⟨e0, e1, -⟩ := idx_facts t
  show V c main_v49 (((cfg1.win 0).blk t).view.emb (ix2 p k)) = V c main_v49 (ix2 i k)
  refine congrArg (V c main_v49) ?_
  funext a; apply Fin.ext
  match a with
  | ⟨0, _⟩ => show win1_0.index t (0 : Fin 2) * 5000 + 1 * p.val = i.val; omega
  | ⟨1, _⟩ => show win1_0.index t (1 : Fin 2) * 128 + 1 * k.val = k.val; omega

/-- The weights' block at every point is the whole weight matrix. -/
theorem w_block (c : Dev nD) (t : Fin cfg1.N) (k : Fin 128) (q : Fin 128) :
    (iblk1 V c 1 t : Vec Ideal S128x128 .f32) (ix2 k q) = (V c main_arg5 : FVec Ideal S128x128 .f32) (ix2 k q) := by
  obtain ⟨-, -, e2, e3, -⟩ := idx_facts t
  show V c main_arg5 (((cfg1.win 1).blk t).view.emb (ix2 k q)) = V c main_arg5 (ix2 k q)
  refine congrArg (V c main_arg5) ?_
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- What point t writes back is block t of the plain product of the hidden features by the weights. -/
theorem flushed_eq (c : Dev nD) (t : Fin cfg1.N) :
    (dat1 V c).flushed 2 t = ((cfg1.win 2).blk t).view.read (Elt Ideal) (product (V c main_v49) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨-, -, -, -, e4, e5⟩ := idx_facts t
  have hlt := t_lt t
  funext j
  obtain ⟨p, q, rfl⟩ : ∃ (p : Fin 5000) (q : Fin 128), j = ix2 p q := ⟨j 0, j 1, eq_ix2 j⟩
  have hp := p.isLt
  show k1_pay1 (iblk1 V c 0 t) (iblk1 V c 1 t) (ix2 p q)
    = product (V c main_v49) (V c main_arg5) (((cfg1.win 2).blk t).view.emb (ix2 p q))
  have hemb : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [hemb]
  refine (body_apply (iblk1 V c 0 t) (iblk1 V c 1 t) p q).trans ?_
  refine (Finset.sum_congr rfl fun k _ => ?_).trans
    (StackMember.dotGeneral_plain_apply none (V c main_v49 : FVec Ideal S50000x128 .f32) (V c main_arg5 : FVec Ideal S128x128 .f32) (⟨t.val * 5000 + p.val, by omega⟩ : Fin 50000) q).symm
  rw [x_block V c t p k ⟨t.val * 5000 + p.val, by omega⟩ rfl, w_block V c t k q]

/-- An index of the result array lies in point t's block iff each coordinate lies in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- Every row of the result lies in the block of the point numbered by the row's quotient by 5000. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, lt_of_lt_of_eq (b := 10) (by omega) N_1.symm⟩
  obtain ⟨-, -, -, -, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the ten points: the plain product of the hidden features by the weights as the projection found them. -/
theorem final (c : Dev nD) : (dat1 V c).arrAt 2 cfg1.N = product (V c main_v49) (V c main_arg5) :=
  (dat1 V c).arrAt_eq_of_cover 2 (product (V c main_v49) (V c main_arg5)) (fun t _ => flushed_eq V c t) covered

end Cert.KernelIdeal.Proj1

end
-- ==== Proof.Chain.lean ====
/-
  The host side of the kernel's program, stretch by stretch, and the result buffer as the two-layer network.

  Between and around the two projections the program runs plain array operations. Read from ANY contents `U` of the
  buffers: the stretch before the first projection leaves the self-loop–extended source and target lists and the
  normalised edge weights (`open_src` … `scale_norm`, put together in `norm_at0`); the stretch after a projection is one convolution of the
  projected features (`mid_conv`, `last_conv`); the short stretch after the first convolution takes the positive part
  (`mid_relu`). A buffer that a stretch does not write keeps its contents, and a projection leaves every buffer
  but its three arrays alone. Walking the result buffer back through the six stretches and the two projections
  (each projection's result array is the plain product of its two operands, proved beside this file) gives the
  network over the plain product, as a function of the seven argument arrays.
-/
import proofs.«114478_j48146583388527_1_alg».proof.Proof.Gen.KernelIdeal.Frame
import proofs.«114478_j48146583388527_1_alg».proof.Proof.Gcn
import proofs.«114478_j48146583388527_1_alg».proof.Proof.Proj0
import proofs.«114478_j48146583388527_1_alg».proof.Proof.Proj1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.Gcn

/-! ## Each stretch from any contents -/

section Stretches

variable {F : FTy → Type} [FloatOps F] (U : Valuation τ sig (Elt F))

/-! ### The opening stretch: edge lists, weights, degrees -/

theorem open_src : after hostOps0 U (Proc.devRef .tc main_v3) = srcIdx (F := F) (U (Proc.devRef .tc main_arg1)) := by
  after_results
  rfl

theorem open_dst : after hostOps0 U (Proc.devRef .tc main_v6) = dstIdx (F := F) (U (Proc.devRef .tc main_arg1)) := by
  after_results
  rfl

theorem open_wts : after hostOps0 U (Proc.devRef .tc main_v8) = wts (F := F) (U (Proc.devRef .tc main_arg2)) := by
  after_results
  rfl

theorem open_pos : after hostOps0 U (Proc.devRef .tc main_v13)
    = (cmpf .ogt : (⟨S50000, .f32⟩ : BufTy).Contents (Elt F) → (⟨S50000, .f32⟩ : BufTy).Contents (Elt F) → (⟨S50000, .i1⟩ : BufTy).Contents (Elt F))
        (deg (F := F) (U (Proc.devRef .tc main_arg1)) (U (Proc.devRef .tc main_arg2))) (broadcastInDim S50000 ![] bcast_S_S50000 (constant (F := F) S_ .f32 0x00000000#32)) := by
  after_results
  rfl

theorem open_rsqrt : after hostOps0 U (Proc.devRef .tc main_v14)
    = (Host.rsqrt : (⟨S50000, .f32⟩ : BufTy).Contents (Elt F) → (⟨S50000, .f32⟩ : BufTy).Contents (Elt F)) (deg (F := F) (U (Proc.devRef .tc main_arg1)) (U (Proc.devRef .tc main_arg2))) := by
  after_results
  rfl

theorem open_zero : after hostOps0 U (Proc.devRef .tc main_cst_2) = constant (F := F) S_ .f32 0x00000000#32 := by
  after_results

/-! ### The choice of the inverse square root where the degree is positive -/

theorem pick_dinv : after hostOps0_1 U (Proc.devRef .tc main_v15)
    = (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F))
        (U (Proc.devRef .tc main_v13)) (U (Proc.devRef .tc main_v14)) (broadcastInDim S50000 ![] bcast_S_S50000 (id (U (Proc.devRef .tc main_cst_2)))) := by
  after_results_simp
  rfl

/-! ### The normalised weights from the inverse square roots, the edge lists and the weights -/

theorem scale_norm : after hostOps0_2 U (Proc.devRef .tc main_v31)
    = (mulf : (⟨S850000, .f32⟩ : BufTy).Contents (Elt F) → (⟨S850000, .f32⟩ : BufTy).Contents (Elt F) → (⟨S850000, .f32⟩ : BufTy).Contents (Elt F))
        ((mulf : (⟨S850000, .f32⟩ : BufTy).Contents (Elt F) → (⟨S850000, .f32⟩ : BufTy).Contents (Elt F) → (⟨S850000, .f32⟩ : BufTy).Contents (Elt F))
          ((fun x i => Host.gather gather_S50000_S850000x1_S850000_n_0_n_n_0_1_1 x i : (⟨S50000, .f32⟩ : BufTy).Contents (Elt F) → (⟨S850000x1, .i32⟩ : BufTy).Contents (Elt F) → (⟨S850000, .f32⟩ : BufTy).Contents (Elt F))
            (U (Proc.devRef .tc main_v15)) (broadcastInDim S850000x1 ![0] bcast_S850000_S850000x1_0 (wrap (F := F) (U (Proc.devRef .tc main_v3))))) (U (Proc.devRef .tc main_v8)))
        ((fun x i => Host.gather gather_S50000_S850000x1_S850000_n_0_n_n_0_1_1 x i : (⟨S50000, .f32⟩ : BufTy).Contents (Elt F) → (⟨S850000x1, .i32⟩ : BufTy).Contents (Elt F) → (⟨S850000, .f32⟩ : BufTy).Contents (Elt F))
          (U (Proc.devRef .tc main_v15)) (broadcastInDim S850000x1 ![0] bcast_S850000_S850000x1_0 (wrap (F := F) (U (Proc.devRef .tc main_v6))))) := by
  after_results_simp
  rfl

theorem mid_conv : after hostOps1 U (Proc.devRef .tc main_v48)
    = conv (F := F) (U (Proc.devRef .tc main_v32)) (U (Proc.devRef .tc main_v31)) (U (Proc.devRef .tc main_v3)) (U (Proc.devRef .tc main_v6)) (U (Proc.devRef .tc main_arg4)) := by
  after_results_simp
  rfl

theorem mid_relu : after hostOps1_1 U (Proc.devRef .tc main_v49) = relu (F := F) (U (Proc.devRef .tc main_v48)) := by
  after_results_simp
  rfl

theorem last_conv : after hostOps2 U (Proc.devRef .tc main_v66)
    = conv (F := F) (U (Proc.devRef .tc main_v50)) (U (Proc.devRef .tc main_v31)) (U (Proc.devRef .tc main_v3)) (U (Proc.devRef .tc main_v6)) (U (Proc.devRef .tc main_arg6)) := by
  after_results_simp
  rfl

end Stretches

/-! ## The buffers a stretch or a projection leaves alone -/

section Walk

variable (m : (ℓ : Loc nD τ sig) → Buf (Elt Ideal) ℓ) (ρ : Dev nD → PrngReg) (c : Dev nD)

/-- No operation of the stretch writes the buffer: decided operation by operation. -/
local macro "unwritten" : tactic =>
  `(tactic| (refine List.forall_iff_forall_mem.mp ?_
             simp only [hostOps0, hostOps0_1, hostOps0_2, hostOps1, hostOps1_1, hostOps2, List.Forall, nullary_writes, unary_writes,
               binary_writes, ternary_writes, quaternary_writes, reshape_writes, binaryIndexed_writes, Finset.mem_singleton]
             repeat' apply And.intro
             all_goals exact devRef_ne_of_ne (by decide)))

/-- A buffer none of the three opening stretches writes still holds its launch contents when the first projection starts. -/
theorem entry0_of (b : Ref sig .tc)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W3 m ρ c (Proc.devRef .tc b) = m ((c : Thread nD τ).loc b) :=
  (after_of_forall_not_mem _ _ h2).trans ((after_of_forall_not_mem _ _ h1).trans ((after_of_forall_not_mem _ _ h0).trans rfl))

/-- A buffer that is none of the first projection's arrays passes through it. -/
theorem exit0_of (b : Ref sig .tc) (hr : ∀ w, Pipeline.arrRef spec0 w ≠ b) :
    W4 m ρ c (Proc.devRef .tc b) = W3 m ρ c (Proc.devRef .tc b) := W4_of_ne m ρ c b hr

/-- A buffer the two middle stretches do not write holds at the second projection's start what the first projection left. -/
theorem entry1_of (b : Ref sig .tc)
    (h11 : ∀ op ∈ (hostOps1_1 : List (HloOp τ sig (Elt Ideal))), Proc.devRef .tc b ∉ op.writes)
    (h1 : ∀ op ∈ (hostOps1 : List (HloOp τ sig (Elt Ideal))), Proc.devRef .tc b ∉ op.writes) :
    W6 m ρ c (Proc.devRef .tc b) = W4 m ρ c (Proc.devRef .tc b) :=
  (after_of_forall_not_mem _ _ h11).trans (after_of_forall_not_mem _ _ h1)

/-- A buffer that is none of the second projection's arrays passes through it. -/
theorem exit1_of (b : Ref sig .tc) (hr : ∀ w, Pipeline.arrRef spec1 w ≠ b) :
    W7 m ρ c (Proc.devRef .tc b) = W6 m ρ c (Proc.devRef .tc b) := W7_of_ne m ρ c b hr

/-! ### The seven arguments where they are read -/

theorem x_at0 : W3 m ρ c (Proc.devRef .tc main_arg0) = (m ((c : Thread nD τ).loc main_arg0)) :=
  entry0_of m ρ c main_arg0 (by unwritten) (by unwritten) (by unwritten)
theorem w1_at0 : W3 m ρ c (Proc.devRef .tc main_arg3) = (m ((c : Thread nD τ).loc main_arg3)) :=
  entry0_of m ρ c main_arg3 (by unwritten) (by unwritten) (by unwritten)
theorem b1_at0 : W4 m ρ c (Proc.devRef .tc main_arg4) = (m ((c : Thread nD τ).loc main_arg4)) :=
  (exit0_of m ρ c main_arg4 (by decide)).trans (entry0_of m ρ c main_arg4 (by unwritten) (by unwritten) (by unwritten))
theorem w2_at1 : W6 m ρ c (Proc.devRef .tc main_arg5) = (m ((c : Thread nD τ).loc main_arg5)) :=
  (entry1_of m ρ c main_arg5 (by unwritten) (by unwritten)).trans
    ((exit0_of m ρ c main_arg5 (by decide)).trans (entry0_of m ρ c main_arg5 (by unwritten) (by unwritten) (by unwritten)))
theorem b2_at1 : W7 m ρ c (Proc.devRef .tc main_arg6) = (m ((c : Thread nD τ).loc main_arg6)) :=
  (exit1_of m ρ c main_arg6 (by decide)).trans ((entry1_of m ρ c main_arg6 (by unwritten) (by unwritten)).trans
    ((exit0_of m ρ c main_arg6 (by decide)).trans (entry0_of m ρ c main_arg6 (by unwritten) (by unwritten) (by unwritten))))

/-! ### The edge lists and the normalised weights, computed before the first projection and read after each -/

theorem src_at0 : W3 m ρ c (Proc.devRef .tc main_v3) = srcIdx (F := Ideal) (m ((c : Thread nD τ).loc main_arg1)) :=
  (after_of_forall_not_mem _ _ (by unwritten)).trans ((after_of_forall_not_mem _ _ (by unwritten)).trans (open_src (W0 m ρ c)))
theorem dst_at0 : W3 m ρ c (Proc.devRef .tc main_v6) = dstIdx (F := Ideal) (m ((c : Thread nD τ).loc main_arg1)) :=
  (after_of_forall_not_mem _ _ (by unwritten)).trans ((after_of_forall_not_mem _ _ (by unwritten)).trans (open_dst (W0 m ρ c)))

/-- The inverse square roots of the degrees, after the second stretch. -/
theorem dinv_at : W2 m ρ c (Proc.devRef .tc main_v15) = dinv (F := Ideal) (m ((c : Thread nD τ).loc main_arg1)) (m ((c : Thread nD τ).loc main_arg2)) := by
  refine (pick_dinv (W1 m ρ c)).trans ?_
  rw [show W1 m ρ c (Proc.devRef .tc main_v13) = _ from open_pos (W0 m ρ c), show W1 m ρ c (Proc.devRef .tc main_v14) = _ from open_rsqrt (W0 m ρ c),
    show W1 m ρ c (Proc.devRef .tc main_cst_2) = _ from open_zero (W0 m ρ c)]
  rfl

theorem norm_at0 : W3 m ρ c (Proc.devRef .tc main_v31) = norm (F := Ideal) (m ((c : Thread nD τ).loc main_arg1)) (m ((c : Thread nD τ).loc main_arg2)) := by
  refine (scale_norm (W2 m ρ c)).trans ?_
  rw [dinv_at m ρ c,
    show W2 m ρ c (Proc.devRef .tc main_v3) = _ from (after_of_forall_not_mem _ _ (by unwritten)).trans (open_src (W0 m ρ c)),
    show W2 m ρ c (Proc.devRef .tc main_v6) = _ from (after_of_forall_not_mem _ _ (by unwritten)).trans (open_dst (W0 m ρ c)),
    show W2 m ρ c (Proc.devRef .tc main_v8) = _ from (after_of_forall_not_mem _ _ (by unwritten)).trans (open_wts (W0 m ρ c))]
  rfl

theorem src_mid : W4 m ρ c (Proc.devRef .tc main_v3) = srcIdx (F := Ideal) (m ((c : Thread nD τ).loc main_arg1)) :=
  (exit0_of m ρ c main_v3 (by decide)).trans (src_at0 m ρ c)
theorem dst_mid : W4 m ρ c (Proc.devRef .tc main_v6) = dstIdx (F := Ideal) (m ((c : Thread nD τ).loc main_arg1)) :=
  (exit0_of m ρ c main_v6 (by decide)).trans (dst_at0 m ρ c)
theorem norm_mid : W4 m ρ c (Proc.devRef .tc main_v31) = norm (F := Ideal) (m ((c : Thread nD τ).loc main_arg1)) (m ((c : Thread nD τ).loc main_arg2)) :=
  (exit0_of m ρ c main_v31 (by decide)).trans (norm_at0 m ρ c)

theorem src_last : W7 m ρ c (Proc.devRef .tc main_v3) = srcIdx (F := Ideal) (m ((c : Thread nD τ).loc main_arg1)) :=
  (exit1_of m ρ c main_v3 (by decide)).trans ((entry1_of m ρ c main_v3 (by unwritten) (by unwritten)).trans (src_mid m ρ c))
theorem dst_last : W7 m ρ c (Proc.devRef .tc main_v6) = dstIdx (F := Ideal) (m ((c : Thread nD τ).loc main_arg1)) :=
  (exit1_of m ρ c main_v6 (by decide)).trans ((entry1_of m ρ c main_v6 (by unwritten) (by unwritten)).trans (dst_mid m ρ c))
theorem norm_last : W7 m ρ c (Proc.devRef .tc main_v31) = norm (F := Ideal) (m ((c : Thread nD τ).loc main_arg1)) (m ((c : Thread nD τ).loc main_arg2)) :=
  (exit1_of m ρ c main_v31 (by decide)).trans ((entry1_of m ρ c main_v31 (by unwritten) (by unwritten)).trans (norm_mid m ρ c))

end Walk

/-! ## The result -/

section Result

variable (m : (ℓ : Loc nD τ sig) → Buf (Elt Ideal) ℓ) (ρ : Dev nD → PrngReg) (c : Dev nD)

theorem conv_congr {h h' : (⟨S50000x128, .f32⟩ : BufTy).Contents (Elt Ideal)} {n n' : (⟨S850000, .f32⟩ : BufTy).Contents (Elt Ideal)}
    {s s' d d' : (⟨S850000, .i32⟩ : BufTy).Contents (Elt Ideal)} {b b' : (⟨S128, .f32⟩ : BufTy).Contents (Elt Ideal)}
    (eh : h = h') (en : n = n') (es : s = s') (ed : d = d') (eb : b = b') : conv (F := Ideal) h n s d b = conv (F := Ideal) h' n' s' d' b' := by
  rw [eh, en, es, ed, eb]

/-- The first projection's result array: the plain product of the node features by the first weights. -/
theorem proj_first : W4 m ρ c (Proc.devRef .tc main_v32) = Proj0.product (m ((c : Thread nD τ).loc main_arg0)) (m ((c : Thread nD τ).loc main_arg3)) :=
  (W4_arr m ρ c 2).trans ((Proj0.final (V3 m ρ) c).trans (congrArg₂ Proj0.product (x_at0 m ρ c) (w1_at0 m ρ c)))

/-- The hidden features: the positive part of the first convolution. -/
theorem hidden : W6 m ρ c (Proc.devRef .tc main_v49)
    = relu (F := Ideal) (conv (F := Ideal) (Proj0.product (m ((c : Thread nD τ).loc main_arg0)) (m ((c : Thread nD τ).loc main_arg3)))
        (norm (F := Ideal) (m ((c : Thread nD τ).loc main_arg1)) (m ((c : Thread nD τ).loc main_arg2))) (srcIdx (F := Ideal) (m ((c : Thread nD τ).loc main_arg1))) (dstIdx (F := Ideal) (m ((c : Thread nD τ).loc main_arg1))) (m ((c : Thread nD τ).loc main_arg4))) :=
  (mid_relu (W5 m ρ c)).trans (congrArg (relu (F := Ideal)) ((mid_conv (W4 m ρ c)).trans
    (conv_congr (proj_first m ρ c) (norm_mid m ρ c) (src_mid m ρ c) (dst_mid m ρ c) (b1_at0 m ρ c))))

/-- The second projection's result array: the plain product of the hidden features by the second weights. -/
theorem proj_second : W7 m ρ c (Proc.devRef .tc main_v50)
    = Proj0.product (relu (F := Ideal) (conv (F := Ideal) (Proj0.product (m ((c : Thread nD τ).loc main_arg0)) (m ((c : Thread nD τ).loc main_arg3)))
        (norm (F := Ideal) (m ((c : Thread nD τ).loc main_arg1)) (m ((c : Thread nD τ).loc main_arg2))) (srcIdx (F := Ideal) (m ((c : Thread nD τ).loc main_arg1))) (dstIdx (F := Ideal) (m ((c : Thread nD τ).loc main_arg1))) (m ((c : Thread nD τ).loc main_arg4)))) (m ((c : Thread nD τ).loc main_arg5)) :=
  (W7_arr m ρ c 2).trans ((Proj1.final (V6 m ρ) c).trans (congrArg₂ Proj0.product (hidden m ρ c) (w2_at1 m ρ c)))

/-- THE RESULT BUFFER when the program returns: the two-layer network over the plain product, of the seven arguments. -/
theorem value : W8 m ρ c (Proc.devRef .tc main_v66)
    = net (F := Ideal) Proj0.product (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (last_conv (W7 m ρ c)).trans
    (conv_congr (proj_second m ρ c) (norm_last m ρ c) (src_last m ρ c) (dst_last m ρ c) (b2_at1 m ρ c))

end Result

end Cert.KernelIdeal.Chain

end
-- ==== Proof.RefNet.lean ====
/-
  The reference's result as the two-layer network.

  The reference program runs the same array operations as the kernel's program around its two projections, and computes
  each projection as one contraction of the whole arrays. Its result, written out operation by operation, is therefore
  the network of two graph convolutions over the plain product, as a function of the seven argument arrays: the two
  texts agree operation for operation, the shape and dimension records of the two programs being equal field by field.
-/
import proofs.«114478_j48146583388527_1_alg».proof.Proof.Gen.ReferenceIdeal.Run
import proofs.«114478_j48146583388527_1_alg».proof.Proof.Gcn
import Idealize.ShloMosaic.PureOps.Ideal

set_option maxRecDepth 16384

noncomputable section

open Idealize.ShloMosaic Idealize.ShloMosaic.TcCoe Idealize.SL.Sem

namespace Cert.ReferenceIdeal.Net

open Cert.ReferenceIdeal Cert.ReferenceIdeal.Value

/-- The plain product of a 50000 × 128 array by a 128 × 128 array, as the host's contraction computes it. -/
abbrev product (A : FVec Ideal Cert.KernelIdeal.S50000x128 .f32) (B : FVec Ideal Cert.KernelIdeal.S128x128 .f32) : FVec Ideal Cert.KernelIdeal.S50000x128 .f32 :=
  Host.dotGeneral (DotDims.plain 50000 128 128) none A B

/-- The reference's contraction record is the plain rows-by-columns one. -/
theorem dot_plain : dot_S50000x128_S128x128_S50000x128_1_0_0_1_n_n = DotDims.plain 50000 128 128 := rfl

set_option maxHeartbeats 4000000 in
/-- The reference's result is the network over the plain product, of its seven arguments. -/
theorem result_eq (m : (ℓ : Loc nD τ sig) → Buf (Elt Ideal) ℓ) (c : Dev nD) :
    res_main_v66 (F := Ideal) m c
      = Cert.KernelIdeal.Gcn.net (F := Ideal) product (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  unfold res_main_v66
  rw [dot_plain]
  unfold Cert.KernelIdeal.Gcn.net Cert.KernelIdeal.Gcn.conv Cert.KernelIdeal.Gcn.relu Cert.KernelIdeal.Gcn.norm Cert.KernelIdeal.Gcn.dinv
    Cert.KernelIdeal.Gcn.deg Cert.KernelIdeal.Gcn.wrap Cert.KernelIdeal.Gcn.wts Cert.KernelIdeal.Gcn.srcIdx Cert.KernelIdeal.Gcn.dstIdx
  rfl

end Cert.ReferenceIdeal.Net

end
-- ==== Proof.lean ====
/-
  The kernel's program and the reference compute the same two-layer graph convolution.

  Both programs build, from the edge list and the edge weights, the self-loop–extended source and target lists and the
  symmetrically normalised edge weights, and then apply twice: project the node features by a 128 × 128 weight matrix,
  gather the projected rows at the edges' sources, scale them by the normalised weights, sum them into the edges'
  targets, add the bias — with the positive part taken between the two layers. They differ in the projection only:
  the reference contracts the two whole arrays at once, the kernel's program multiplies ten blocks of 5000 rows, each
  by the whole weight matrix, into zero, after rounding both operands to a narrower format. At the ideal values the
  rounding is the identity and each block product is the corresponding rows of the whole product, so both results are
  the same function (`Gcn.net` over the plain product) of the seven arguments; no law of the extended reals beyond
  reading the two products as the same sum over the contracted coordinate is needed, and finiteness of the inputs is
  not used. The idealised kernel's program is the kernel's program read at the ideal values, nothing rewritten.

  The frames of the two kernel programs are the generated ones; the reference's frame is its generated run with the
  result dropped.
-/
import proofs.«114478_j48146583388527_1_alg».proof.Defs
import proofs.«114478_j48146583388527_1_alg».proof.Proof.Gen.Kernel
import proofs.«114478_j48146583388527_1_alg».proof.Proof.Gen.Kernel.Skeleton
import proofs.«114478_j48146583388527_1_alg».proof.Proof.Gen.Kernel.Launch
import proofs.«114478_j48146583388527_1_alg».proof.Proof.Gen.Kernel.Points
import proofs.«114478_j48146583388527_1_alg».proof.Proof.Gen.Kernel.Frame
import proofs.«114478_j48146583388527_1_alg».proof.Proof.Gen.KernelIdeal
import proofs.«114478_j48146583388527_1_alg».proof.Proof.Gen.KernelIdeal.Skeleton
import proofs.«114478_j48146583388527_1_alg».proof.Proof.Gen.KernelIdeal.Launch
import proofs.«114478_j48146583388527_1_alg».proof.Proof.Gen.KernelIdeal.Points
import proofs.«114478_j48146583388527_1_alg».proof.Proof.Gen.KernelIdeal.Frame
import proofs.«114478_j48146583388527_1_alg».proof.Proof.Gen.ReferenceIdeal
import proofs.«114478_j48146583388527_1_alg».proof.Proof.Gen.Pre_finite_inputs
import proofs.«114478_j48146583388527_1_alg».proof.Proof.Gen.ReferenceIdeal.Run
import proofs.«114478_j48146583388527_1_alg».proof.Proof.KernelRun
import proofs.«114478_j48146583388527_1_alg».proof.Proof.Chain
import proofs.«114478_j48146583388527_1_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the idealised kernel's program. -/
theorem preserves : Cert.preserves_Kernel_KernelIdeal := trivial

/-- Both runs end with the result at the two-layer network over the plain product, of arguments that agree. -/
theorem algebraic : Cert.algebraic_KernelIdeal_ReferenceIdeal := by
  intro m ρ m' ρ' _ hagree
  refine ⟨fun c => Cert.KernelIdeal.Gcn.net (F := Ideal) Cert.KernelIdeal.Proj0.product
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.value m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Net.result_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
